-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4x1024x1024 : Shape := ⟨3, ![4, 1024, 1024]⟩
abbrev S4x1024 : Shape := ⟨2, ![4, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg4 : FVec F S4x1024 .f32) (main_arg5 : FVec F S4x1024x1024 .f32) (main_arg6 : FVec F S4x1024 .f32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_v19 : FVec F S4x1024 .f32 := Host.absf main_arg4
  let main_cst_6 : FVec F S_ .f32 := constant S_ .f32 0x7F800000#32
  let main_v20 : FVec F S4x1024 .f32 := broadcastInDim S4x1024 ![] bcast_S_S4x1024 main_cst_6
  let main_v21 : IVec S4x1024 1 := cmpf .olt main_v19 main_v20
  let main_c_7 : IVec S_ 1 := constantI S_ 1 1#1
  let main_v22 : IVec S_ 1 := (fun x v => Host.reduce IntOp.andi x v reducesTo_S4x1024_S_d0_1 h_S_) main_v21 main_c_7
  let main_v23 : IVec S_ 1 := andi main_v18 main_v22
  let main_v24 : FVec F S4x1024x1024 .f32 := Host.absf main_arg5
  let main_cst_8 : FVec F S_ .f32 := constant S_ .f32 0x7F800000#32
  let main_v25 : FVec F S4x1024x1024 .f32 := broadcastInDim S4x1024x1024 ![] bcast_S_S4x1024x1024 main_cst_8
  let main_v26 : IVec S4x1024x1024 1 := cmpf .olt main_v24 main_v25
  let main_c_9 : IVec S_ 1 := constantI S_ 1 1#1
  let main_v27 : IVec S_ 1 := (fun x v => Host.reduce IntOp.andi x v reducesTo_S4x1024x1024_S_d0_1_2 h_S_) main_v26 main_c_9
  let main_v28 : IVec S_ 1 := andi main_v23 main_v27
  let main_v29 : FVec F S4x1024 .f32 := Host.absf main_arg6
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  main_v33

def fn {F : FTy → Type} [FloatOps F] (main_arg0 : FVec F S8192x1024 .f32) (main_arg1 : FVec F S8192x1024 .f32) (main_arg2 : FVec F S8192x1024 .f32) (main_arg3 : FVec F S4x1024x1024 .f32) (main_arg4 : FVec F S4x1024 .f32) (main_arg5 : FVec F S4x1024x1024 .f32) (main_arg6 : FVec F S4x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_arg5 main_arg6 main_v13 main_v16
-- ==== Kernel.lean ====
abbrev S8192x1024 : Shape := ⟨2, ![8192, 1024]⟩
abbrev S4x1024x1024 : Shape := ⟨3, ![4, 1024, 1024]⟩
abbrev S4x1024 : Shape := ⟨2, ![4, 1024]⟩
abbrev S256x1024 : Shape := ⟨2, ![256, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 12
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4x1024x1024, .f32⟩
  | .hbm, ⟨4, _⟩ => ⟨S4x1024, .f32⟩
  | .hbm, ⟨5, _⟩ => ⟨S4x1024x1024, .f32⟩
  | .hbm, ⟨6, _⟩ => ⟨S4x1024, .f32⟩
  | .hbm, ⟨7, _⟩ => ⟨S4x1024x1024, .bf16⟩
  | .hbm, ⟨8, _⟩ => ⟨S4x1024x1024, .bf16⟩
  | .hbm, ⟨9, _⟩ => ⟨S4x1024, .f32⟩
  | .hbm, ⟨10, _⟩ => ⟨S8192x1024, .f32⟩
  | .hbm, ⟨11, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4x1024x1024, .bf16⟩
  | .local _ .vmem, ⟨7, _⟩ => ⟨S4x1024x1024, .bf16⟩
  | .local _ .vmem, ⟨8, _⟩ => ⟨S4x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S4x1024x1024_S1x1024x1024_0_0_0 : ∀ a, (![0, 0, 0] : Fin 3 → Nat) a + S1x1024x1024.size a ≤ S4x1024x1024.size a
  h_S1x1024x1024 : 0 < S1x1024x1024.numel
  shapeCasts_S1x1024x1024_S1024x1024 : S1x1024x1024.ShapeCasts S1024x1024
  inb_S4x1024_S1x1024_0_0 : ∀ a, (![0, 0] : Fin 2 → Nat) a + S1x1024.size a ≤ S4x1024.size a
  h_S1x1024 : 0 < S1x1024.numel
  shapeCasts_S1x1024_S1024 : S1x1024.ShapeCasts S1024
  shapeCasts_S1024_S1x1024 : S1024.ShapeCasts S1x1024
  broadcasts_S1x1024_S256x1024 : S1x1024.Broadcasts S256x1024
  inb_S4x1024x1024_S1x1024x1024_1_0_0 : ∀ a, (![1, 0, 0] : Fin 3 → Nat) a + S1x1024x1024.size a ≤ S4x1024x1024.size a
  inb_S4x1024_S1x1024_1_0 : ∀ a, (![1, 0] : Fin 2 → Nat) a + S1x1024.size a ≤ S4x1024.size a
  inb_S4x1024x1024_S1x1024x1024_2_0_0 : ∀ a, (![2, 0, 0] : Fin 3 → Nat) a + S1x1024x1024.size a ≤ S4x1024x1024.size a
  inb_S4x1024_S1x1024_2_0 : ∀ a, (![2, 0] : Fin 2 → Nat) a + S1x1024.size a ≤ S4x1024.size a
  inb_S4x1024x1024_S1x1024x1024_3_0_0 : ∀ a, (![3, 0, 0] : Fin 3 → Nat) a + S1x1024x1024.size a ≤ S4x1024x1024.size a
  inb_S4x1024_S1x1024_3_0 : ∀ a, (![3, 0] : Fin 2 → Nat) a + S1x1024.size a ≤ S4x1024.size a
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x1024x1024.size a ≤ S4x1024x1024.size a
  hwx0_3 : ∀ i : grid0.Coords, EltTy.bits .bf16 = 32 ∨ (Rect.block (s := S4x1024x1024) S4x1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x1024x1024.size a ≤ S4x1024x1024.size a
  hwx0_4 : ∀ i : grid0.Coords, EltTy.bits .bf16 = 32 ∨ (Rect.block (s := S4x1024x1024) S4x1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x1024.size a ≤ S4x1024.size a
  hwx0_5 : ∀ i : grid0.Coords, EltTy.bits .f32 = 32 ∨ (Rect.block (s := S4x1024) S4x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4x1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S4x1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S4x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S4x1024x1024 : Shape := ⟨3, ![4, 1024, 1024]⟩
abbrev S4x1024 : Shape := ⟨2, ![4, 1024]⟩
abbrev S4x1024x8192 : Shape := ⟨3, ![4, 1024, 8192]⟩
abbrev S4x8192x1024 : Shape := ⟨3, ![4, 8192, 1024]⟩
abbrev S4x1x1024 : Shape := ⟨3, ![4, 1, 1024]⟩
abbrev S1x8192x1024 : Shape := ⟨3, ![1, 8192, 1024]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4x1024x1024, .f32⟩
  | .hbm, ⟨4, _⟩ => ⟨S4x1024, .f32⟩
  | .hbm, ⟨5, _⟩ => ⟨S4x1024x1024, .f32⟩
  | .hbm, ⟨6, _⟩ => ⟨S4x1024, .f32⟩
  | .hbm, ⟨7, _⟩ => ⟨S4x1024x8192, .f32⟩
  | .hbm, ⟨8, _⟩ => ⟨S4x8192x1024, .f32⟩
  | .hbm, ⟨9, _⟩ => ⟨S4x1024x8192, .f32⟩
  | .hbm, ⟨10, _⟩ => ⟨S4x8192x1024, .f32⟩
  | .hbm, ⟨11, _⟩ => ⟨S4x8192x1024, .f32⟩
  | .hbm, ⟨12, _⟩ => ⟨S4x1024, .f32⟩
  | .hbm, ⟨13, _⟩ => ⟨S4x1x1024, .f32⟩
  | .hbm, ⟨14, _⟩ => ⟨S4x8192x1024, .f32⟩
  | .hbm, ⟨15, _⟩ => ⟨S4x8192x1024, .f32⟩
  | .hbm, ⟨16, _⟩ => ⟨S1x8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S1x8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S1x8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S1x8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]

class Facts₀ : Prop where
  transposes_S4x1024x8192_S4x8192x1024_0_2_1 : S4x1024x8192.Transposes [0, 2, 1] S4x8192x1024
  bcast_S4x1024_S4x1x1024_0_2 : S4x1024.BroadcastsInDim S4x1x1024 (![0, 2] : Fin 2 → Fin S4x1x1024.rank)
  bcast_S4x1x1024_S4x8192x1024_0_1_2 : S4x1x1024.BroadcastsInDim S4x8192x1024 (![0, 1, 2] : Fin 3 → Fin S4x8192x1024.rank)
  slices_S4x8192x1024_S1x8192x1024_0_0_0 : S4x8192x1024.Slices ![0, 0, 0] S1x8192x1024
  shapeCasts_S1x8192x1024_S8192x1024 : S1x8192x1024.ShapeCasts S8192x1024
  bcast_S_S8192x1024 : S_.BroadcastsInDim S8192x1024 (![] : Fin 0 → Fin S8192x1024.rank)
  slices_S4x8192x1024_S1x8192x1024_1_0_0 : S4x8192x1024.Slices ![1, 0, 0] S1x8192x1024
  slices_S4x8192x1024_S1x8192x1024_2_0_0 : S4x8192x1024.Slices ![2, 0, 0] S1x8192x1024
  slices_S4x8192x1024_S1x8192x1024_3_0_0 : S4x8192x1024.Slices ![3, 0, 0] S1x8192x1024
  dot_S4x1024x1024_S8192x1024_S4x1024x8192_2_1_01_0_n_n_wf : DotDims.WF S4x1024x1024 S8192x1024 S4x1024x8192 [2] [1] [0, 1] [0] [] []

variable [Facts₀]

def dot_S4x1024x1024_S8192x1024_S4x1024x8192_2_1_01_0_n_n : DotDims S4x1024x1024 S8192x1024 S4x1024x8192 where
  lhsContracting := [2]
  rhsContracting := [1]
  lhsNonContracting := [0, 1]
  rhsNonContracting := [0]
  lhsBatch := []
  rhsBatch := []
  wf := dot_S4x1024x1024_S8192x1024_S4x1024x8192_2_1_01_0_n_n_wf

class Facts : Prop extends Facts₀ where

variable [Facts]
-- ==== Proof.LstmSpec.lean ====
/-
  One step of an LSTM cell on the extended reals, where both idealized programs compute.

  For batch row `b` and hidden unit `h`, gate `k` (forget, input, output, candidate: 0, 1, 2, 3) has the
  pre-activation
      z k b h = (∑ d, x b d · W k h d  +  ∑ d, hp b d · U k h d)  +  (bW k h + bU k h),
  the new cell state is   c' b h = σ(z 0 b h) · cp b h + σ(z 1 b h) · tanh (z 3 b h),
  and the new hidden state  h' b h = σ(z 2 b h) · tanh (c' b h),
  with σ the logistic function 1 / (1 + e^(-z)).

  A row of the result depends on the same row of `x`, `hp` and `cp` only, so the functions are first given on ROWS
  (`gate`, `cellOf`, `hiddenOf`: what one output entry is, from the two rows of activations, one row of each weight
  matrix and one bias) and then read off the whole arrays (`cellArr`, `hiddenArr`).
-/
import Idealize.ShloMosaic.PureOps.Ideal
import Idealize.ShloMosaic.PureOps.Ideal.Laws
import Idealize.ShloMosaic.Lib.ValueIdx

noncomputable section

namespace Cert.Lstm

open Idealize.ShloMosaic Idealize.ShloMosaic.ValueIdx

/-- A gate's pre-activation at one output entry: the row of `x` against the row of `W`, plus the row of the previous
    hidden state against the row of `U`, plus the bias. The grouping is the one both programs use. -/
def gate (xr hr wr ur : Fin 1024 → EReal) (b : EReal) : EReal :=
  (∑ d : Fin 1024, xr d * wr d + ∑ d : Fin 1024, hr d * ur d) + b

/-- The new cell state from the forget, input and candidate pre-activations and the old cell state. -/
def cellOf (zf zi zg cp : EReal) : EReal :=
  Ideal.logistic zf * cp + Ideal.logistic zi * Ideal.tanh zg

/-- The new hidden state from the output gate's pre-activation and the new cell state. -/
def hiddenOf (zo c : EReal) : EReal :=
  Ideal.logistic zo * Ideal.tanh c

/-- The same pre-activation with each product's factors in the other order (weights first): multiplication of
    extended reals commutes, term by term. -/
theorem gate_swapped (xr hr wr ur : Fin 1024 → EReal) (b : EReal) :
    (∑ d : Fin 1024, wr d * xr d + ∑ d : Fin 1024, ur d * hr d) + b = gate xr hr wr ur b := by
  unfold gate
  rw [Finset.sum_congr rfl fun d _ => mul_comm (wr d) (xr d), Finset.sum_congr rfl fun d _ => mul_comm (ur d) (hr d)]

/-- The logistic function spelled with a quotient, as a program that expands it computes it. -/
theorem logistic_eq (z : EReal) : Ideal.div 1 (1 + Ideal.exp (-z)) = Ideal.logistic z := rfl

/-- The single-precision word `0x3F800000` denotes the real number one. -/
theorem one_f32 : Ideal.ofBits .f32 0x3F800000#32 = 1 := by
  simp [Ideal.ofBits, Ideal.ieee, -EReal.coe_mul]; norm_num

/-! ## On the whole arrays -/

/-- Activations: batch row by feature. -/
abbrev Batch : Shape := ⟨2, ![8192, 1024]⟩
/-- The four gates' weight matrices, stacked: gate by hidden unit by input feature. -/
abbrev Weights : Shape := ⟨3, ![4, 1024, 1024]⟩
/-- The four gates' bias vectors, stacked. -/
abbrev Biases : Shape := ⟨2, ![4, 1024]⟩

section
variable (x hp cp : Batch.Idx → EReal) (W U : Weights.Idx → EReal) (bW bU : Biases.Idx → EReal)

/-- Gate `k`'s pre-activation at batch row `b`, hidden unit `h`. -/
def preact (k : Fin 4) (b : Fin 8192) (h : Fin 1024) : EReal :=
  gate (fun d => x (ix2 b d)) (fun d => hp (ix2 b d)) (fun d => W (ix3 k h d)) (fun d => U (ix3 k h d))
    (bW (ix2 k h) + bU (ix2 k h))

/-- The new cell state at `(b, h)`. -/
def cellNext (b : Fin 8192) (h : Fin 1024) : EReal :=
  cellOf (preact x hp W U bW bU 0 b h) (preact x hp W U bW bU 1 b h) (preact x hp W U bW bU 3 b h) (cp (ix2 b h))

/-- The new hidden state at `(b, h)`. -/
def hiddenNext (b : Fin 8192) (h : Fin 1024) : EReal :=
  hiddenOf (preact x hp W U bW bU 2 b h) (cellNext x hp cp W U bW bU b h)

/-- The new cell state as an array. -/
def cellArr : Batch.Idx → EReal := fun i => cellNext x hp cp W U bW bU (i 0) (i 1)

/-- The new hidden state as an array. -/
def hiddenArr : Batch.Idx → EReal := fun i => hiddenNext x hp cp W U bW bU (i 0) (i 1)

theorem cellArr_ix2 (b : Fin 8192) (h : Fin 1024) : cellArr x hp cp W U bW bU (ix2 b h) = cellNext x hp cp W U bW bU b h := rfl
theorem hiddenArr_ix2 (b : Fin 8192) (h : Fin 1024) : hiddenArr x hp cp W U bW bU (ix2 b h) = hiddenNext x hp cp W U bW bU b h := rfl

end

end Cert.Lstm

end
-- ==== Proof.GateBlock.lean ====
/-
  The kernel body's arithmetic at one entry of a block.

  The body loads the block's 256 rows of `x` and of the previous hidden state, and for each gate `k` the
  gate's slab of each weight stack (a [1, 1024, 1024] piece, cast to a matrix) and its row of the summed bias (a
  [1, 1024] piece, broadcast down the block's rows); it forms  x · W_kᵀ + hp · U_kᵀ + bias_k  with two matrix
  products into a zero accumulator. At entry (r, h) of the block that is the row-level `Lstm.gate` of row `r` of the
  two activation blocks, row `h` of the two weight slabs and entry `h` of the bias row: the matrix product contracts
  the SECOND axis of both operands, so entry (r, h) is ∑ d, lhs (r, d) · rhs (h, d).
-/
import proofs.«166224_j72121090835050_1_alg».proof.Proof.Gen.KernelIdeal.Skeleton
import proofs.«166224_j72121090835050_1_alg».proof.Proof.LstmSpec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Block

open Cert.KernelIdeal Cert.KernelIdeal.Gen Idealize.ShloMosaic Idealize.ShloMosaic.TcCoe Idealize.ShloMosaic.ValueIdx
open Cert.Lstm

/-! ## The matrix product, entry by entry -/

/-- The left operand is read at the output's row … -/
theorem lhs_row (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
/-- … and the contracted coordinate. -/
theorem lhs_contr (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q
/-- The right operand is read at the output's COLUMN (its first axis is the one kept) … -/
theorem rhs_row (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
/-- … and the contracted coordinate. -/
theorem rhs_contr (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

/-- A matrix product into the zero accumulator, at entry (r, h): the row `r` of the left operand against the row `h`
    of the right one. -/
theorem matmul_entry (a : FVec Ideal S256x1024 .bf16) (w : FVec Ideal S1024x1024 .bf16) (r : Fin 256) (h : Fin 1024) :
    matmul dot_S256x1024_S1024x1024_S256x1024_1_1_0_0_n_n none a w (constant S256x1024 .f32 0x00000000#32) (ix2 r h)
      = ∑ d : Fin 1024, a (ix2 r d) * w (ix2 h d) := by
  refine (Ideal.matmul_constant_zero_apply dot_S256x1024_S1024x1024_S256x1024_1_1_0_0_n_n none a w (ix2 r h)).trans ?_
  rw [← Equiv.sum_comp (ValueIdx.contrEquiv1 dot_S256x1024_S1024x1024_S256x1024_1_1_0_0_n_n 1024 rfl rfl).symm]
  refine Finset.sum_congr rfl fun k _ => ?_
  have hk := ValueIdx.contrEquiv1_symm_val dot_S256x1024_S1024x1024_S256x1024_1_1_0_0_n_n 1024 rfl rfl k
  have el : dot_S256x1024_S1024x1024_S256x1024_1_1_0_0_n_n.lhsIdx (ix2 r h) ((ValueIdx.contrEquiv1 dot_S256x1024_S1024x1024_S256x1024_1_1_0_0_n_n 1024 rfl rfl).symm k) = ix2 r k := funext fun ax => Fin.ext (by
    match ax with
    | ⟨0, _⟩ => exact lhs_row _ _
    | ⟨1, _⟩ => exact (lhs_contr _ _).trans hk)
  have er : dot_S256x1024_S1024x1024_S256x1024_1_1_0_0_n_n.rhsIdx (ix2 r h) ((ValueIdx.contrEquiv1 dot_S256x1024_S1024x1024_S256x1024_1_1_0_0_n_n 1024 rfl rfl).symm k) = ix2 h k := funext fun ax => Fin.ext (by
    match ax with
    | ⟨0, _⟩ => exact rhs_row _ _
    | ⟨1, _⟩ => exact (rhs_contr _ _).trans hk)
  rw [el, er]

/-! ## A gate's slab of weights, and its row of bias -/

/-- The slab cast to a matrix reads, at (h, d), the slab at (0, h, d). -/
theorem slab_entry (s : Vec Ideal S1x1024x1024 .bf16) (hc : S1x1024x1024.ShapeCasts S1024x1024) (h d : Fin 1024) :
    shapeCast S1024x1024 s hc (ix2 h d) = s (ix3 (0 : Fin 1) h d) :=
  shapeCast_1ab_ab_apply s hc h d

/-- The bias row, flattened, put back as a one-row matrix and broadcast down 256 rows, reads at (r, h) its entry `h`. -/
theorem bias_entry (b : Vec Ideal S1x1024 .f32) (h1 : S1x1024.ShapeCasts S1024) (h2 : S1024.ShapeCasts S1x1024)
    (h3 : S1x1024.Broadcasts S256x1024) (r : Fin 256) (h : Fin 1024) :
    broadcastTo S256x1024 (shapeCast S1x1024 (shapeCast S1024 b h1) h2) h3 (ix2 r h) = b (ix2 (0 : Fin 1) h) := by
  rw [shapeCast_shapeCast]
  exact broadcastTo_1b_ab_apply b h3 r h

/-! ## A gate's pre-activation at an entry of the block -/

/-- The two products into zero accumulators, added, plus the broadcast bias row, at entry (r, h): the row-level
    pre-activation of row `r` of the two activation blocks against row `h` of the two weight slabs. -/
theorem gate_entry (xb hb : FVec Ideal S256x1024 .bf16) (ws us : Vec Ideal S1x1024x1024 .bf16) (bs : Vec Ideal S1x1024 .f32)
    (hc : S1x1024x1024.ShapeCasts S1024x1024) (h1 : S1x1024.ShapeCasts S1024) (h2 : S1024.ShapeCasts S1x1024)
    (h3 : S1x1024.Broadcasts S256x1024) (r : Fin 256) (h : Fin 1024) :
    addf (addf (matmul dot_S256x1024_S1024x1024_S256x1024_1_1_0_0_n_n none xb (shapeCast S1024x1024 ws hc : FVec Ideal S1024x1024 .bf16) (constant S256x1024 .f32 0x00000000#32))
               (matmul dot_S256x1024_S1024x1024_S256x1024_1_1_0_0_n_n none hb (shapeCast S1024x1024 us hc : FVec Ideal S1024x1024 .bf16) (constant S256x1024 .f32 0x00000000#32)))
         (broadcastTo S256x1024 (shapeCast S1x1024 (shapeCast S1024 bs h1) h2) h3 : FVec Ideal S256x1024 .f32) (ix2 r h)
      = gate (fun d => xb (ix2 r d)) (fun d => hb (ix2 r d)) (fun d => ws (ix3 (0 : Fin 1) h d)) (fun d => us (ix3 (0 : Fin 1) h d))
          (bs (ix2 (0 : Fin 1) h)) := by
  rw [addf_apply, addf_apply, matmul_entry, matmul_entry, bias_entry]
  unfold gate
  exact congrArg₂ (· + ·)
    (congrArg₂ (· + ·)
      (Finset.sum_congr rfl fun d _ => congrArg (xb (ix2 r d) * ·) (slab_entry ws hc h d))
      (Finset.sum_congr rfl fun d _ => congrArg (hb (ix2 r d) * ·) (slab_entry us hc h d)))
    rfl

/-! ## The body's payloads at an entry -/

section
variable (v0 v2 v4 : Vec Ideal S256x1024 .f32)

/-- The forget gate's pre-activation as the body computes it (the activations rounded to bf16 first: the identity on
    the extended reals). -/
theorem pay5_entry (v5 v7 : Vec Ideal S1x1024x1024 .bf16) (v12 : Vec Ideal S1x1024 .f32) (r : Fin 256) (h : Fin 1024) :
    k0_pay5 (F := Ideal) v0 v2 v5 v7 v12 (ix2 r h)
      = gate (fun d => v0 (ix2 r d)) (fun d => v2 (ix2 r d)) (fun d => v5 (ix3 (0 : Fin 1) h d)) (fun d => v7 (ix3 (0 : Fin 1) h d))
          (v12 (ix2 (0 : Fin 1) h)) := by
  unfold k0_pay5 k0_pay3 k0_pay4
  exact gate_entry (truncf .bf16 v0 bitsLt_bf16_f32) (truncf .bf16 v2 bitsLt_bf16_f32) v5 v7 v12 _ _ _ _ r h

/-- The input gate's, likewise. -/
theorem pay6_entry (v17 v19 : Vec Ideal S1x1024x1024 .bf16) (v24 : Vec Ideal S1x1024 .f32) (r : Fin 256) (h : Fin 1024) :
    k0_pay6 (F := Ideal) v0 v2 v17 v19 v24 (ix2 r h)
      = gate (fun d => v0 (ix2 r d)) (fun d => v2 (ix2 r d)) (fun d => v17 (ix3 (0 : Fin 1) h d)) (fun d => v19 (ix3 (0 : Fin 1) h d))
          (v24 (ix2 (0 : Fin 1) h)) := by
  unfold k0_pay6 k0_pay3 k0_pay4
  exact gate_entry (truncf .bf16 v0 bitsLt_bf16_f32) (truncf .bf16 v2 bitsLt_bf16_f32) v17 v19 v24 _ _ _ _ r h
end

/-- The new cell state's payload: from the forget and input pre-activations already formed, the candidate gate's formed
    here, and the old cell state. -/
theorem pay1_entry (v1 v3 : FVec Ideal S256x1024 .bf16) (v4 : Vec Ideal S256x1024 .f32) (v16 v28 : FVec Ideal S256x1024 .f32)
    (v41 v43 : Vec Ideal S1x1024x1024 .bf16) (v48 : Vec Ideal S1x1024 .f32) (r : Fin 256) (h : Fin 1024) :
    k0_pay1 (F := Ideal) v1 v3 v4 v16 v28 v41 v43 v48 (ix2 r h)
      = cellOf (v16 (ix2 r h)) (v28 (ix2 r h))
          (gate (fun d => v1 (ix2 r d)) (fun d => v3 (ix2 r d)) (fun d => v41 (ix3 (0 : Fin 1) h d)) (fun d => v43 (ix3 (0 : Fin 1) h d))
            (v48 (ix2 (0 : Fin 1) h)))
          (v4 (ix2 r h)) := by
  unfold k0_pay1 cellOf
  exact congrArg (fun z => Ideal.logistic (v16 (ix2 r h)) * v4 (ix2 r h) + Ideal.logistic (v28 (ix2 r h)) * Ideal.tanh z)
    (gate_entry v1 v3 v41 v43 v48 _ _ _ _ r h)

/-- The new hidden state's payload: the output gate's pre-activation formed here, against the new cell state. -/
theorem pay2_entry (v1 v3 : FVec Ideal S256x1024 .bf16) (v4 : Vec Ideal S256x1024 .f32) (v16 v28 : FVec Ideal S256x1024 .f32)
    (v29 v31 : Vec Ideal S1x1024x1024 .bf16) (v36 : Vec Ideal S1x1024 .f32)
    (v41 v43 : Vec Ideal S1x1024x1024 .bf16) (v48 : Vec Ideal S1x1024 .f32) (r : Fin 256) (h : Fin 1024) :
    k0_pay2 (F := Ideal) v1 v3 v4 v16 v28 v29 v31 v36 v41 v43 v48 (ix2 r h)
      = hiddenOf
          (gate (fun d => v1 (ix2 r d)) (fun d => v3 (ix2 r d)) (fun d => v29 (ix3 (0 : Fin 1) h d)) (fun d => v31 (ix3 (0 : Fin 1) h d))
            (v36 (ix2 (0 : Fin 1) h)))
          (k0_pay1 (F := Ideal) v1 v3 v4 v16 v28 v41 v43 v48 (ix2 r h)) := by
  unfold k0_pay2 hiddenOf
  exact congrArg (fun z => Ideal.logistic z * Ideal.tanh (k0_pay1 (F := Ideal) v1 v3 v4 v16 v28 v41 v43 v48 (ix2 r h)))
    (gate_entry v1 v3 v29 v31 v36 _ _ _ _ r h)

/-! ## The loads of one gate's slab and bias row out of the stacks -/

/-- The [1, 1024, 1024] piece at gate offset `o` of a weight stack holds, at (0, h, d), the stack's entry (k, h, d) for the
    gate `k` whose number is `o`. -/
theorem slab_load (X : Vec Ideal S4x1024x1024 .bf16) (o : Nat)
    (inb : ∀ a, (![o, 0, 0] : Fin 3 → Nat) a + S1x1024x1024.size a ≤ S4x1024x1024.size a) (k : Fin 4) (hk : k.val = o) (h d : Fin 1024) :
    (View.ld X (Rect.unit (s := S4x1024x1024) ![o, 0, 0] S1x1024x1024.size inb) : Vec Ideal S1x1024x1024 .bf16) (ix3 (0 : Fin 1) h d)
      = X (ix3 k h d) := by
  show X ((Rect.unit (s := S4x1024x1024) ![o, 0, 0] S1x1024x1024.size inb).idx (ix3 (0 : Fin 1) h d)) = X (ix3 k h d)
  refine congrArg X (funext fun a => Fin.ext ?_)
  match a with
  | ⟨0, _⟩ => show o + 1 * 0 = k.val; omega
  | ⟨1, _⟩ => show 0 + 1 * h.val = h.val; omega
  | ⟨2, _⟩ => show 0 + 1 * d.val = d.val; omega

/-- The [1, 1024] piece at gate offset `o` of the bias stack holds, at (0, h), the stack's entry (k, h). -/
theorem bias_load (X : Vec Ideal S4x1024 .f32) (o : Nat)
    (inb : ∀ a, (![o, 0] : Fin 2 → Nat) a + S1x1024.size a ≤ S4x1024.size a) (k : Fin 4) (hk : k.val = o) (h : Fin 1024) :
    (View.ld X (Rect.unit (s := S4x1024) ![o, 0] S1x1024.size inb) : Vec Ideal S1x1024 .f32) (ix2 (0 : Fin 1) h)
      = X (ix2 k h) := by
  show X ((Rect.unit (s := S4x1024) ![o, 0] S1x1024.size inb).idx (ix2 (0 : Fin 1) h)) = X (ix2 k h)
  refine congrArg X (funext fun a => Fin.ext ?_)
  match a with
  | ⟨0, _⟩ => show o + 1 * 0 = k.val; omega
  | ⟨1, _⟩ => show 0 + 1 * h.val = h.val; omega

end Cert.KernelIdeal.Block

end
-- ==== Proof.BlockValue.lean ====
/-
  What the body leaves in its two output blocks, as the specification's arrays read at the block's rows.

  The body stores each output block whole, once, so the block after the body is the stored payload; the loads of the
  three activation blocks are whole-block loads. The activation blocks are 256 consecutive rows of their arrays — row `r`
  of a block is row `row r` of the array — while the two weight stacks and the bias stack are held whole. So entry (r, h)
  of the cell-state block is the new cell state at (row r, h), and likewise for the hidden state: a row of the result
  depends on the same row of the activations only.
-/
import proofs.«166224_j72121090835050_1_alg».proof.Proof.Gen.KernelIdeal.Frame
import proofs.«166224_j72121090835050_1_alg».proof.Proof.GateBlock

noncomputable section

namespace Cert.KernelIdeal.Block

open Cert.KernelIdeal Cert.KernelIdeal.Gen Idealize.ShloMosaic Idealize.ShloMosaic.TcCoe Idealize.ShloMosaic.ValueIdx
open Cert.Lstm

/-- The block offsets of a whole-block access, spelt as the program spells them, are all zero. -/
theorem zero_offsets : (![0, 0] : Fin 2 → Nat) = fun _ => 0 := funext fun a => by fin_cases a <;> rfl

theorem gate_congr {xr xr' hr hr' wr wr' ur ur' : Fin 1024 → EReal} {b b' : EReal} (h1 : ∀ d, xr d = xr' d) (h2 : ∀ d, hr d = hr' d)
    (h3 : ∀ d, wr d = wr' d) (h4 : ∀ d, ur d = ur' d) (h5 : b = b') : gate xr hr wr ur b = gate xr' hr' wr' ur' b' := by
  rw [show xr = xr' from funext h1, show hr = hr' from funext h2, show wr = wr' from funext h3, show ur = ur' from funext h4, h5]

theorem cellOf_congr {a a' b b' c c' d d' : EReal} (ha : a = a') (hb : b = b') (hc : c = c') (hd : d = d') :
    cellOf a b c d = cellOf a' b' c' d' := by rw [ha, hb, hc, hd]

theorem hiddenOf_congr {a a' c c' : EReal} (ha : a = a') (hc : c = c') : hiddenOf a c = hiddenOf a' c' := by rw [ha, hc]

section
variable (x0 x1 x2 : Vec Ideal S256x1024 .f32) (x3 x4 : Vec Ideal S4x1024x1024 .bf16) (x5 : Vec Ideal S4x1024 .f32)
  (X HP CP : Batch.Idx → EReal) (W U : Weights.Idx → EReal) (bW bU : Biases.Idx → EReal) (row : Fin 256 → Fin 8192)
  (e0 : ∀ r d, x0 (ix2 r d) = X (ix2 (row r) d)) (e1 : ∀ r d, x1 (ix2 r d) = HP (ix2 (row r) d))
  (e2 : ∀ r d, x2 (ix2 r d) = CP (ix2 (row r) d))
  (e3 : ∀ k h d, x3 (ix3 k h d) = W (ix3 k h d)) (e4 : ∀ k h d, x4 (ix3 k h d) = U (ix3 k h d))
  (e5 : ∀ k h, x5 (ix2 k h) = bW (ix2 k h) + bU (ix2 k h))

include e0 e1 e3 e4 e5 in
/-- Gate `k`'s pre-activation formed from the blocks, with gate `k`'s slab and bias row loaded at offset `o = k`. -/
theorem gate_block (o : Nat) (k : Fin 4) (hk : k.val = o)
    (inb3 : ∀ a, (![o, 0, 0] : Fin 3 → Nat) a + S1x1024x1024.size a ≤ S4x1024x1024.size a)
    (inb2 : ∀ a, (![o, 0] : Fin 2 → Nat) a + S1x1024.size a ≤ S4x1024.size a) (r : Fin 256) (h : Fin 1024) :
    gate (fun d => x0 (ix2 r d)) (fun d => x1 (ix2 r d))
        (fun d => (View.ld x3 (Rect.unit (s := S4x1024x1024) ![o, 0, 0] S1x1024x1024.size inb3) : Vec Ideal S1x1024x1024 .bf16) (ix3 (0 : Fin 1) h d))
        (fun d => (View.ld x4 (Rect.unit (s := S4x1024x1024) ![o, 0, 0] S1x1024x1024.size inb3) : Vec Ideal S1x1024x1024 .bf16) (ix3 (0 : Fin 1) h d))
        ((View.ld x5 (Rect.unit (s := S4x1024) ![o, 0] S1x1024.size inb2) : Vec Ideal S1x1024 .f32) (ix2 (0 : Fin 1) h))
      = preact X HP W U bW bU k (row r) h :=
  gate_congr (e0 r) (e1 r) (fun d => (slab_load x3 o inb3 k hk h d).trans (e3 k h d))
    (fun d => (slab_load x4 o inb3 k hk h d).trans (e4 k h d)) ((bias_load x5 o inb2 k hk h).trans (e5 k h))

include e0 e1 e2 e3 e4 e5 in
/-- The cell-state block after the body. -/
theorem cell_block (r : Fin 256) (h : Fin 1024) :
    out0_7 (F := Ideal) x0 x1 x2 x3 x4 x5 (ix2 r h) = cellNext X HP CP W U bW bU (row r) h := by
  unfold out0_7
  rw [View.canon_unit_zero zero_offsets]
  simp only [View.ld_unit_zero (S := S256x1024) zero_offsets]
  refine (pay1_entry (k0_pay3 x0) (k0_pay4 x1) x2 (k0_pay5 x0 x1 (View.ld x3 r0_1) (View.ld x4 r0_1) (View.ld x5 r0_2))
    (k0_pay6 x0 x1 (View.ld x3 r0_3) (View.ld x4 r0_3) (View.ld x5 r0_4)) (View.ld x3 r0_7) (View.ld x4 r0_7) (View.ld x5 r0_8) r h).trans ?_
  unfold cellNext
  refine cellOf_congr ?_ ?_ ?_ (e2 r h)
  · exact (pay5_entry x0 x1 (View.ld x3 r0_1) (View.ld x4 r0_1) (View.ld x5 r0_2) r h).trans
      (gate_block x0 x1 x3 x4 x5 X HP W U bW bU row e0 e1 e3 e4 e5 0 0 rfl _ _ r h)
  · exact (pay6_entry x0 x1 (View.ld x3 r0_3) (View.ld x4 r0_3) (View.ld x5 r0_4) r h).trans
      (gate_block x0 x1 x3 x4 x5 X HP W U bW bU row e0 e1 e3 e4 e5 1 1 rfl _ _ r h)
  · exact gate_block x0 x1 x3 x4 x5 X HP W U bW bU row e0 e1 e3 e4 e5 3 3 rfl _ _ r h

include e0 e1 e2 e3 e4 e5 in
/-- The hidden-state block after the body. -/
theorem hidden_block (r : Fin 256) (h : Fin 1024) :
    out0_6 (F := Ideal) x0 x1 x2 x3 x4 x5 (ix2 r h) = hiddenNext X HP CP W U bW bU (row r) h := by
  have hc := cell_block x0 x1 x2 x3 x4 x5 X HP CP W U bW bU row e0 e1 e2 e3 e4 e5 r h
  unfold out0_7 at hc
  rw [View.canon_unit_zero zero_offsets] at hc
  simp only [View.ld_unit_zero (S := S256x1024) zero_offsets] at hc
  unfold out0_6
  rw [View.canon_unit_zero zero_offsets]
  simp only [View.ld_unit_zero (S := S256x1024) zero_offsets]
  refine (pay2_entry (k0_pay3 x0) (k0_pay4 x1) x2 (k0_pay5 x0 x1 (View.ld x3 r0_1) (View.ld x4 r0_1) (View.ld x5 r0_2))
    (k0_pay6 x0 x1 (View.ld x3 r0_3) (View.ld x4 r0_3) (View.ld x5 r0_4)) (View.ld x3 r0_5) (View.ld x4 r0_5) (View.ld x5 r0_6)
    (View.ld x3 r0_7) (View.ld x4 r0_7) (View.ld x5 r0_8) r h).trans ?_
  unfold hiddenNext
  exact hiddenOf_congr (gate_block x0 x1 x3 x4 x5 X HP W U bW bU row e0 e1 e3 e4 e5 2 2 rfl _ _ r h) hc

end

end Cert.KernelIdeal.Block

end
-- ==== Proof.KernelArrays.lean ====
/-
  The idealized kernel's two result arrays after its run, as the specification's functions of the argument arrays.

  The grid has 32 points; point `t` works on rows 256·t … 256·t + 255 of the three activation arrays and of both result
  arrays (every one of these windows has block index (t, 0)), and holds the two weight stacks and the bias stack whole
  (block index all zero). Before the region the host part rounds the weight stacks to bf16 — the identity on the
  extended reals — and adds the two bias stacks. So what point `t` writes back to the cell-state array is block `t` of
  `Lstm.cellArr` of the arguments, and likewise for the hidden state (the per-point fact, from `Block.cell_block` and
  `Block.hidden_block`); the 32 blocks tile the 8192 rows (row `p` is in block p / 256), so each array ends holding the
  whole function.
-/
import proofs.«166224_j72121090835050_1_alg».proof.Proof.Gen.KernelIdeal.Value
import proofs.«166224_j72121090835050_1_alg».proof.Proof.BlockValue
import Idealize.ShloMosaic.Lib.StableHlo.Run

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.Pipeline (Dat)
open Idealize.ShloMosaic.ValueIdx Cert.Lstm

variable (m : (ℓ : Loc nD τ sig) → Buf (Elt Ideal) ℓ) (ρ : Dev nD → PrngReg)

/-! ## The seven argument arrays of core `c` as launched, as arrays of extended reals -/

abbrev argX (c : Dev nD) : Batch.Idx → EReal := m ((c : Thread nD τ).loc main_arg0)
abbrev argHP (c : Dev nD) : Batch.Idx → EReal := m ((c : Thread nD τ).loc main_arg1)
abbrev argCP (c : Dev nD) : Batch.Idx → EReal := m ((c : Thread nD τ).loc main_arg2)
abbrev argW (c : Dev nD) : Weights.Idx → EReal := m ((c : Thread nD τ).loc main_arg3)
abbrev argBW (c : Dev nD) : Biases.Idx → EReal := m ((c : Thread nD τ).loc main_arg4)
abbrev argU (c : Dev nD) : Weights.Idx → EReal := m ((c : Thread nD τ).loc main_arg5)
abbrev argBU (c : Dev nD) : Biases.Idx → EReal := m ((c : Thread nD τ).loc main_arg6)

/-! ## The index maps, decided over the 32 points -/

/-- The activation and result windows all sit at block (t's row block, 0), which is below 32; the weight and bias windows at
    block zero. -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_3.index t (0 : Fin 3) = 0 ∧ win0_3.index t (1 : Fin 3) = 0 ∧ win0_3.index t (2 : Fin 3) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 2) = win0_7.index t (0 : Fin 2) ∧ win0_6.index t (1 : Fin 2) = 0
    ∧ win0_7.index t (0 : Fin 2) ≤ 31 ∧ win0_7.index t (1 : Fin 2) = 0 :=
  (by decide +kernel : ∀ t : Fin grid0.N, _)

/-- Every one of the 32 row blocks is some point's. -/
theorem idx_onto : ∀ q : Fin 32, ∃ t : Fin cfg0.N, win0_7.index t = ![q.val, 0] :=
  (by decide +kernel : ∀ q : Fin 32, ∃ t : Fin grid0.N, win0_7.index t = ![q.val, 0])

/-- The array row that row `r` of point `t`'s blocks is. -/
def rowOf (t : Fin cfg0.N) (r : Fin 256) : Fin 8192 :=
  ⟨win0_7.index t (0 : Fin 2) * 256 + r.val, by
    have h := (idx_facts t).2.2.2.2.2.2.2.2.2.2.2.2.2.2.2.2.1
    have hr := r.isLt
    omega⟩

/-! ## The arrays the host part wrote before the region -/

section
variable {F : FTy → Type} [FloatOps F] (mF : (ℓ : Loc nD τ sig) → Buf (Elt F) ℓ)

/-- The region finds, in the first rounded weight stack, the host's rounding of the first weight stack. -/
theorem wx_host (c : Dev nD) : V mF c main_v0
    = ((truncf .bf16 · bitsLt_bf16_f32) : (⟨S4x1024x1024, .f32⟩ : BufTy).Contents (Elt F) → (⟨S4x1024x1024, .bf16⟩ : BufTy).Contents (Elt F))
        (mF ((c : Thread nD τ).loc main_arg3)) := by
  dsimp only [Gen.V, Gen.hostOps0]; after_results

/-- Likewise for the second. -/
theorem uh_host (c : Dev nD) : V mF c main_v1
    = ((truncf .bf16 · bitsLt_bf16_f32) : (⟨S4x1024x1024, .f32⟩ : BufTy).Contents (Elt F) → (⟨S4x1024x1024, .bf16⟩ : BufTy).Contents (Elt F))
        (mF ((c : Thread nD τ).loc main_arg5)) := by
  dsimp only [Gen.V, Gen.hostOps0]; after_results

/-- And, in the summed bias stack, the host's sum of the two bias stacks. -/
theorem bias_host (c : Dev nD) : V mF c main_v2
    = (addf : (⟨S4x1024, .f32⟩ : BufTy).Contents (Elt F) → (⟨S4x1024, .f32⟩ : BufTy).Contents (Elt F) → (⟨S4x1024, .f32⟩ : BufTy).Contents (Elt F))
        (mF ((c : Thread nD τ).loc main_arg4)) (mF ((c : Thread nD τ).loc main_arg6)) := by
  dsimp only [Gen.V, Gen.hostOps0]; after_results
end

/-- On the extended reals rounding is the identity: the rounded copy of the first weight stack is the stack. -/
theorem wx_entry (c : Dev nD) (i : S4x1024x1024.Idx) : V m c main_v0 i = argW m c i :=
  congrFun (wx_host m c) i

/-- The rounded copy of the second weight stack, likewise. -/
theorem uh_entry (c : Dev nD) (i : S4x1024x1024.Idx) : V m c main_v1 i = argU m c i :=
  congrFun (uh_host m c) i

/-- The summed bias stack, entry by entry. -/
theorem bias_sum_entry (c : Dev nD) (i : S4x1024.Idx) : V m c main_v2 i = argBW m c i + argBU m c i :=
  congrFun (bias_host m c) i

/-! ## The windows' blocks as rows of the arrays -/

section
variable (c : Dev nD) (t : Fin cfg0.N)

/-- Row `r` of the `x` block at point `t` is row `rowOf t r` of `x`. -/
theorem x_block (r : Fin 256) (d : Fin 1024) :
    iblk m c 0 t (ix2 r d) = argX m c (ix2 (rowOf t r) d) := by
  obtain ⟨e00, e01, -⟩ := idx_facts t
  show V m c main_arg0 (((cfg0.win 0).blk t).view.emb (ix2 r d)) = _
  refine (congrFun (V_main_arg0 m c) _).trans (congrArg _ (funext fun a => Fin.ext ?_))
  match a with
  | ⟨0, _⟩ => show win0_0.index t (0 : Fin 2) * 256 + 1 * r.val = win0_7.index t (0 : Fin 2) * 256 + r.val; omega
  | ⟨1, _⟩ => show win0_0.index t (1 : Fin 2) * 1024 + 1 * d.val = d.val; omega

/-- The same for the previous hidden state's block. -/
theorem hp_block (r : Fin 256) (d : Fin 1024) :
    iblk m c 1 t (ix2 r d) = argHP m c (ix2 (rowOf t r) d) := by
  obtain ⟨-, -, e10, e11, -⟩ := idx_facts t
  show V m c main_arg1 (((cfg0.win 1).blk t).view.emb (ix2 r d)) = _
  refine (congrFun (V_main_arg1 m c) _).trans (congrArg _ (funext fun a => Fin.ext ?_))
  match a with
  | ⟨0, _⟩ => show win0_1.index t (0 : Fin 2) * 256 + 1 * r.val = win0_7.index t (0 : Fin 2) * 256 + r.val; omega
  | ⟨1, _⟩ => show win0_1.index t (1 : Fin 2) * 1024 + 1 * d.val = d.val; omega

/-- And for the previous cell state's. -/
theorem cp_block (r : Fin 256) (d : Fin 1024) :
    iblk m c 2 t (ix2 r d) = argCP m c (ix2 (rowOf t r) d) := by
  obtain ⟨-, -, -, -, e20, e21, -⟩ := idx_facts t
  show V m c main_arg2 (((cfg0.win 2).blk t).view.emb (ix2 r d)) = _
  refine (congrFun (V_main_arg2 m c) _).trans (congrArg _ (funext fun a => Fin.ext ?_))
  match a with
  | ⟨0, _⟩ => show win0_2.index t (0 : Fin 2) * 256 + 1 * r.val = win0_7.index t (0 : Fin 2) * 256 + r.val; omega
  | ⟨1, _⟩ => show win0_2.index t (1 : Fin 2) * 1024 + 1 * d.val = d.val; omega

/-- The first weight stack is held whole: its block is the stack. -/
theorem wx_block (k : Fin 4) (h d : Fin 1024) :
    iblk m c 3 t (ix3 k h d) = argW m c (ix3 k h d) := by
  obtain ⟨-, -, -, -, -, -, e30, e31, e32, -⟩ := idx_facts t
  show V m c main_v0 (((cfg0.win 3).blk t).view.emb (ix3 k h d)) = _
  refine (wx_entry m c _).trans (congrArg _ (funext fun a => Fin.ext ?_))
  match a with
  | ⟨0, _⟩ => show win0_3.index t (0 : Fin 3) * 4 + 1 * k.val = k.val; omega
  | ⟨1, _⟩ => show win0_3.index t (1 : Fin 3) * 1024 + 1 * h.val = h.val; omega
  | ⟨2, _⟩ => show win0_3.index t (2 : Fin 3) * 1024 + 1 * d.val = d.val; omega

/-- So is the second. -/
theorem uh_block (k : Fin 4) (h d : Fin 1024) :
    iblk m c 4 t (ix3 k h d) = argU m c (ix3 k h d) := by
  obtain ⟨-, -, -, -, -, -, -, -, -, e40, e41, e42, -⟩ := idx_facts t
  show V m c main_v1 (((cfg0.win 4).blk t).view.emb (ix3 k h d)) = _
  refine (uh_entry m c _).trans (congrArg _ (funext fun a => Fin.ext ?_))
  match a with
  | ⟨0, _⟩ => show win0_4.index t (0 : Fin 3) * 4 + 1 * k.val = k.val; omega
  | ⟨1, _⟩ => show win0_4.index t (1 : Fin 3) * 1024 + 1 * h.val = h.val; omega
  | ⟨2, _⟩ => show win0_4.index t (2 : Fin 3) * 1024 + 1 * d.val = d.val; omega

/-- And the summed bias stack. -/
theorem bias_block (k : Fin 4) (h : Fin 1024) :
    iblk m c 5 t (ix2 k h) = argBW m c (ix2 k h) + argBU m c (ix2 k h) := by
  obtain ⟨-, -, -, -, -, -, -, -, -, -, -, -, e50, e51, -⟩ := idx_facts t
  show V m c main_v2 (((cfg0.win 5).blk t).view.emb (ix2 k h)) = _
  have he : ((cfg0.win 5).blk t).view.emb (ix2 k h) = ix2 k h := funext fun a => Fin.ext (by
    match a with
    | ⟨0, _⟩ => show win0_5.index t (0 : Fin 2) * 4 + 1 * k.val = k.val; omega
    | ⟨1, _⟩ => show win0_5.index t (1 : Fin 2) * 1024 + 1 * h.val = h.val; omega)
  rw [he]
  exact bias_sum_entry m c (ix2 k h)

end

/-! ## What each point writes back -/

section
variable (c : Dev nD) (t : Fin cfg0.N)

/-- Entry (r, h) of point `t`'s block of the cell-state array is the array's entry (rowOf t r, h). -/
theorem cell_emb (r : Fin 256) (h : Fin 1024) : ((cfg0.win 7).blk t).view.emb (ix2 r h) = ix2 (rowOf t r) h := by
  have e71 := (idx_facts t).2.2.2.2.2.2.2.2.2.2.2.2.2.2.2.2.2
  exact funext fun a => Fin.ext (by
    match a with
    | ⟨0, _⟩ => show win0_7.index t (0 : Fin 2) * 256 + 1 * r.val = win0_7.index t (0 : Fin 2) * 256 + r.val; omega
    | ⟨1, _⟩ => show win0_7.index t (1 : Fin 2) * 1024 + 1 * h.val = h.val; omega)

/-- The same for the hidden-state array, whose window sits at the same block. -/
theorem hidden_emb (r : Fin 256) (h : Fin 1024) : ((cfg0.win 6).blk t).view.emb (ix2 r h) = ix2 (rowOf t r) h := by
  obtain ⟨-, -, -, -, -, -, -, -, -, -, -, -, -, -, e60, e61, -⟩ := idx_facts t
  exact funext fun a => Fin.ext (by
    match a with
    | ⟨0, _⟩ => show win0_6.index t (0 : Fin 2) * 256 + 1 * r.val = win0_7.index t (0 : Fin 2) * 256 + r.val; omega
    | ⟨1, _⟩ => show win0_6.index t (1 : Fin 2) * 1024 + 1 * h.val = h.val; omega)

/-- Point `t` writes back, to the cell-state array, block `t` of the new cell state of the arguments. -/
theorem cell_flushed :
    (dats m 0 c).flushed 7 t = ((cfg0.win 7).blk t).view.read (Elt Ideal)
      (cellArr (argX m c) (argHP m c) (argCP m c) (argW m c) (argU m c) (argBW m c) (argBU m c)) := by
  rw [Value.flushed7]
  funext j
  obtain ⟨r, h, rfl⟩ : ∃ (r : Fin 256) (h : Fin 1024), j = ix2 r h := ⟨j 0, j 1, eq_ix2 j⟩
  show out0_7 (F := Ideal) (iblk m c 0 t) (iblk m c 1 t) (iblk m c 2 t) (iblk m c 3 t) (iblk m c 4 t) (iblk m c 5 t) (ix2 r h)
    = cellArr (argX m c) (argHP m c) (argCP m c) (argW m c) (argU m c) (argBW m c) (argBU m c) (((cfg0.win 7).blk t).view.emb (ix2 r h))
  rw [cell_emb, cellArr_ix2]
  exact Block.cell_block (iblk m c 0 t) (iblk m c 1 t) (iblk m c 2 t) (iblk m c 3 t) (iblk m c 4 t) (iblk m c 5 t)
    (argX m c) (argHP m c) (argCP m c) (argW m c) (argU m c) (argBW m c) (argBU m c) (rowOf t)
    (x_block m c t) (hp_block m c t) (cp_block m c t) (wx_block m c t) (uh_block m c t) (bias_block m c t) r h

/-- And to the hidden-state array, block `t` of the new hidden state. -/
theorem hidden_flushed :
    (dats m 0 c).flushed 6 t = ((cfg0.win 6).blk t).view.read (Elt Ideal)
      (hiddenArr (argX m c) (argHP m c) (argCP m c) (argW m c) (argU m c) (argBW m c) (argBU m c)) := by
  rw [Value.flushed6]
  funext j
  obtain ⟨r, h, rfl⟩ : ∃ (r : Fin 256) (h : Fin 1024), j = ix2 r h := ⟨j 0, j 1, eq_ix2 j⟩
  show out0_6 (F := Ideal) (iblk m c 0 t) (iblk m c 1 t) (iblk m c 2 t) (iblk m c 3 t) (iblk m c 4 t) (iblk m c 5 t) (ix2 r h)
    = hiddenArr (argX m c) (argHP m c) (argCP m c) (argW m c) (argU m c) (argBW m c) (argBU m c) (((cfg0.win 6).blk t).view.emb (ix2 r h))
  rw [hidden_emb, hiddenArr_ix2]
  exact Block.hidden_block (iblk m c 0 t) (iblk m c 1 t) (iblk m c 2 t) (iblk m c 3 t) (iblk m c 4 t) (iblk m c 5 t)
    (argX m c) (argHP m c) (argCP m c) (argW m c) (argU m c) (argBW m c) (argBU m c) (rowOf t)
    (x_block m c t) (hp_block m c t) (cp_block m c t) (wx_block m c t) (uh_block m c t) (bias_block m c t) r h

end

/-! ## The 32 blocks tile the 8192 rows -/

/-- An entry of the cell-state array is in point `t`'s block iff each coordinate is in the block's range. -/
theorem cell_mem_blk (t : Fin cfg0.N) (i : S8192x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v3_1).slice (win0_7.rect t)).set ↔ _
  rw [View.set_slice_whole, Rect.mem_set_unit]
  exact Iff.rfl

theorem hidden_mem_blk (t : Fin cfg0.N) (i : S8192x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v3_0).slice (win0_6.rect t)).set ↔ _
  rw [View.set_slice_whole, Rect.mem_set_unit]
  exact Iff.rfl

/-- Row `p` of the cell-state array is in the block of the point whose row block is p / 256. -/
theorem cell_cover (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  obtain ⟨t, ht⟩ := idx_onto ⟨(i 0).val / 256, by omega⟩
  have q0 : win0_7.index t (0 : Fin 2) = (i 0).val / 256 := congrFun ht 0
  have q1 : win0_7.index t (1 : Fin 2) = 0 := congrFun ht 1
  refine ⟨t, flush0_7 t, ?_⟩
  rw [cell_mem_blk]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 1024 ≤ (i 1).val ∧ (i 1).val < win0_7.index t (1 : Fin 2) * 1024 + 1024; omega

/-- The same for the hidden-state array. -/
theorem hidden_cover (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  obtain ⟨t, ht⟩ := idx_onto ⟨(i 0).val / 256, by omega⟩
  have q0 : win0_7.index t (0 : Fin 2) = (i 0).val / 256 := congrFun ht 0
  obtain ⟨-, -, -, -, -, -, -, -, -, -, -, -, -, -, e60, e61, -⟩ := idx_facts t
  refine ⟨t, flush0_6 t, ?_⟩
  rw [hidden_mem_blk]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 1024 ≤ (i 1).val ∧ (i 1).val < win0_6.index t (1 : Fin 2) * 1024 + 1024; omega

/-! ## The arrays after the run, and the run -/

/-- The cell-state array ends holding the new cell state of the arguments. -/
theorem cell_final (c : Dev nD) : (dats m 0 c).arrAt 7 cfg0.N
    = cellArr (argX m c) (argHP m c) (argCP m c) (argW m c) (argU m c) (argBW m c) (argBU m c) :=
  (dats m 0 c).arrAt_eq_of_cover 7 _ (fun t _ => cell_flushed m c t) cell_cover

/-- The hidden-state array ends holding the new hidden state. -/
theorem hidden_final (c : Dev nD) : (dats m 0 c).arrAt 6 cfg0.N
    = hiddenArr (argX m c) (argHP m c) (argCP m c) (argW m c) (argU m c) (argBW m c) (argBU m c) :=
  (dats m 0 c).arrAt_eq_of_cover 6 _ (fun t _ => hidden_flushed m c t) hidden_cover

/-- Every weakly fair execution of the idealized kernel's @main terminates with its two results at the new hidden
    and cell states of the argument arrays, the arguments unchanged. -/
theorem run : θ_run defs (onTc (τ := τ) (main (F := Ideal))) ⟨m, fun _ => 0, ρ⟩ fun r => ∀ c : Dev nD,
      r.2.mem ((c : Thread nD τ).loc main_v3_0) = hiddenArr (argX m c) (argHP m c) (argCP m c) (argW m c) (argU m c) (argBW m c) (argBU m c)
      ∧ r.2.mem ((c : Thread nD τ).loc main_v3_1) = cellArr (argX m c) (argHP m c) (argCP m c) (argW m c) (argU m c) (argBW m c) (argBU m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (hidden_final m c), (h c).2.1.trans (cell_final m c), (h c).2.2⟩)
    (Value.run_blocks m ρ)

end Cert.KernelIdeal.Arrays

end
-- ==== Proof.RefCell.lean ====
/-
  The reference program at an entry: its chain of host operations read back, at batch row `b` and hidden unit `h`, as the
  specification's `cellNext` and `hiddenNext`.

  The reference forms all four gates' pre-activations at once, as a [4, 8192, 1024] array: two contractions of the weight
  stacks with the activations (weights on the left, so the products' factors come in the other order: `gate_swapped`),
  each transposed to put the batch axis in the middle, added, plus the summed bias stack broadcast over the batch axis.
  It then slices gate `k` out, reshapes the [1, 8192, 1024] slice to a matrix (row-major position (b, h) is b·1024 + h
  on both sides), and applies the logistic function spelled out as 1 / (1 + e^(-z)) — the word `0x3F800000` is one — or
  the hyperbolic tangent.
-/
import proofs.«166224_j72121090835050_1_alg».proof.Proof.Gen.ReferenceIdeal.Read
import proofs.«166224_j72121090835050_1_alg».proof.Proof.LstmSpec

noncomputable section

namespace Cert.ReferenceIdeal.Cell

open Cert.ReferenceIdeal Cert.ReferenceIdeal.Gen Cert.ReferenceIdeal.Read Idealize.ShloMosaic Idealize.ShloMosaic.TcCoe
open Idealize.ShloMosaic.ValueIdx Cert.Lstm

variable (x0 x1 x2 : (⟨S8192x1024, .f32⟩ : BufTy).Contents (Elt Ideal)) (x3 x5 : (⟨S4x1024x1024, .f32⟩ : BufTy).Contents (Elt Ideal))
  (x4 x6 : (⟨S4x1024, .f32⟩ : BufTy).Contents (Elt Ideal))

/-! ## All four gates' pre-activations -/

/-- The stacked pre-activation array at (k, b, h) is gate `k`'s pre-activation at (b, h). -/
theorem pre_entry (k : Fin 4) (b : Fin 8192) (h : Fin 1024) :
    val_main_v8 (F := Ideal) x0 x1 x3 x4 x5 x6 (ix3 k b h) = preact x0 x1 x3 x5 x4 x6 k b h := by
  rw [val_main_v8_apply, val_main_v4_apply, val_main_v1_apply, val_main_v3_apply, val_main_v0_apply, val_main_v2_apply,
    val_main_v7_apply, val_main_v6_apply, val_main_v5_apply]
  have el0 : ∀ d : Fin 1024, lidx_main_v0 (idx_main_v1 (ix3 k b h)) d = ix3 k h d := fun d => funext fun a => Fin.ext (by
    match a with | ⟨0, _⟩ => rfl | ⟨1, _⟩ => rfl | ⟨2, _⟩ => rfl)
  have er0 : ∀ d : Fin 1024, ridx_main_v0 (idx_main_v1 (ix3 k b h)) d = ix2 b d := fun d => funext fun a => Fin.ext (by
    match a with | ⟨0, _⟩ => rfl | ⟨1, _⟩ => rfl)
  have el2 : ∀ d : Fin 1024, lidx_main_v2 (idx_main_v3 (ix3 k b h)) d = ix3 k h d := fun d => funext fun a => Fin.ext (by
    match a with | ⟨0, _⟩ => rfl | ⟨1, _⟩ => rfl | ⟨2, _⟩ => rfl)
  have er2 : ∀ d : Fin 1024, ridx_main_v2 (idx_main_v3 (ix3 k b h)) d = ix2 b d := fun d => funext fun a => Fin.ext (by
    match a with | ⟨0, _⟩ => rfl | ⟨1, _⟩ => rfl)
  have eb : idx_main_v6 (idx_main_v7 (ix3 k b h)) = ix2 k h := funext fun a => Fin.ext (by
    match a with | ⟨0, _⟩ => rfl | ⟨1, _⟩ => rfl)
  simp only [el0, er0, el2, er2, eb]
  exact gate_swapped (fun d => x0 (ix2 b d)) (fun d => x1 (ix2 b d)) (fun d => x3 (ix3 k h d)) (fun d => x5 (ix3 k h d))
    (x4 (ix2 k h) + x6 (ix2 k h))

/-! ## One gate sliced out: the matrix entry (b, h) is the stack's entry (k, b, h) -/

theorem slice0 (b : Fin 8192) (h : Fin 1024) : idx_main_v9 (idx_main_v10 (ix2 b h)) = ix3 (0 : Fin 4) b h := by
  have hb : b.val < 8192 := b.isLt
  have hh : h.val < 1024 := h.isLt
  exact funext fun a => Fin.ext (by
    match a with
    | ⟨0, _⟩ => rfl
    | ⟨1, _⟩ => show (b.val * 1024 + h.val) / 1024 % 8192 = b.val; omega
    | ⟨2, _⟩ => show (b.val * 1024 + h.val) % 1024 = h.val; omega)

theorem slice1 (b : Fin 8192) (h : Fin 1024) : idx_main_v17 (idx_main_v18 (ix2 b h)) = ix3 (1 : Fin 4) b h := by
  have hb : b.val < 8192 := b.isLt
  have hh : h.val < 1024 := h.isLt
  exact funext fun a => Fin.ext (by
    match a with
    | ⟨0, _⟩ => rfl
    | ⟨1, _⟩ => show (b.val * 1024 + h.val) / 1024 % 8192 = b.val; omega
    | ⟨2, _⟩ => show (b.val * 1024 + h.val) % 1024 = h.val; omega)

theorem slice2 (b : Fin 8192) (h : Fin 1024) : idx_main_v25 (idx_main_v26 (ix2 b h)) = ix3 (2 : Fin 4) b h := by
  have hb : b.val < 8192 := b.isLt
  have hh : h.val < 1024 := h.isLt
  exact funext fun a => Fin.ext (by
    match a with
    | ⟨0, _⟩ => rfl
    | ⟨1, _⟩ => show (b.val * 1024 + h.val) / 1024 % 8192 = b.val; omega
    | ⟨2, _⟩ => show (b.val * 1024 + h.val) % 1024 = h.val; omega)

theorem slice3 (b : Fin 8192) (h : Fin 1024) : idx_main_v33 (idx_main_v34 (ix2 b h)) = ix3 (3 : Fin 4) b h := by
  have hb : b.val < 8192 := b.isLt
  have hh : h.val < 1024 := h.isLt
  exact funext fun a => Fin.ext (by
    match a with
    | ⟨0, _⟩ => rfl
    | ⟨1, _⟩ => show (b.val * 1024 + h.val) / 1024 % 8192 = b.val; omega
    | ⟨2, _⟩ => show (b.val * 1024 + h.val) % 1024 = h.val; omega)

/-! ## The gates' activations -/

/-- The forget gate: the logistic function of gate 0's pre-activation. -/
theorem forget_entry (b : Fin 8192) (h : Fin 1024) :
    val_main_v16 (F := Ideal) x0 x1 x3 x4 x5 x6 (ix2 b h) = Ideal.logistic (preact x0 x1 x3 x5 x4 x6 0 b h) := by
  rw [val_main_v16_apply, val_main_v15_apply, val_main_cst_0_apply, val_main_v14_apply, val_main_v13_apply, val_main_cst_apply,
    val_main_v12_apply, val_main_v11_apply, val_main_v10_apply, val_main_v9_apply, slice0, pre_entry]
  simp only [Ideal.hostDivf_def, Ideal.addf_def, Ideal.hostUnary_exp_def, Ideal.hostNegf_def, Ideal.negf_def, Ideal.ofBits_def, one_f32,
    logistic_eq]

/-- The input gate: the logistic function of gate 1's. -/
theorem input_entry (b : Fin 8192) (h : Fin 1024) :
    val_main_v24 (F := Ideal) x0 x1 x3 x4 x5 x6 (ix2 b h) = Ideal.logistic (preact x0 x1 x3 x5 x4 x6 1 b h) := by
  rw [val_main_v24_apply, val_main_v23_apply, val_main_cst_2_apply, val_main_v22_apply, val_main_v21_apply, val_main_cst_1_apply,
    val_main_v20_apply, val_main_v19_apply, val_main_v18_apply, val_main_v17_apply, slice1, pre_entry]
  simp only [Ideal.hostDivf_def, Ideal.addf_def, Ideal.hostUnary_exp_def, Ideal.hostNegf_def, Ideal.negf_def, Ideal.ofBits_def, one_f32,
    logistic_eq]

/-- The output gate: the logistic function of gate 2's. -/
theorem output_entry (b : Fin 8192) (h : Fin 1024) :
    val_main_v32 (F := Ideal) x0 x1 x3 x4 x5 x6 (ix2 b h) = Ideal.logistic (preact x0 x1 x3 x5 x4 x6 2 b h) := by
  rw [val_main_v32_apply, val_main_v31_apply, val_main_cst_4_apply, val_main_v30_apply, val_main_v29_apply, val_main_cst_3_apply,
    val_main_v28_apply, val_main_v27_apply, val_main_v26_apply, val_main_v25_apply, slice2, pre_entry]
  simp only [Ideal.hostDivf_def, Ideal.addf_def, Ideal.hostUnary_exp_def, Ideal.hostNegf_def, Ideal.negf_def, Ideal.ofBits_def, one_f32,
    logistic_eq]

/-- The candidate: the hyperbolic tangent of gate 3's. -/
theorem candidate_entry (b : Fin 8192) (h : Fin 1024) :
    val_main_v35 (F := Ideal) x0 x1 x3 x4 x5 x6 (ix2 b h) = Ideal.tanh (preact x0 x1 x3 x5 x4 x6 3 b h) := by
  rw [val_main_v35_apply, val_main_v34_apply, val_main_v33_apply, slice3, pre_entry]
  simp only [Ideal.hostUnary_tanh_def]

/-! ## The two results -/

/-- The reference's second result is the new cell state. -/
theorem cell_entry (b : Fin 8192) (h : Fin 1024) :
    val_main_v38 (F := Ideal) x0 x1 x2 x3 x4 x5 x6 (ix2 b h) = cellNext x0 x1 x2 x3 x5 x4 x6 b h := by
  rw [val_main_v38_apply, val_main_v36_apply, val_main_v37_apply, forget_entry, input_entry, candidate_entry]
  rfl

/-- The reference's first result is the new hidden state. -/
theorem hidden_entry (b : Fin 8192) (h : Fin 1024) :
    val_main_v40 (F := Ideal) x0 x1 x2 x3 x4 x5 x6 (ix2 b h) = hiddenNext x0 x1 x2 x3 x5 x4 x6 b h := by
  rw [val_main_v40_apply, val_main_v39_apply, output_entry, cell_entry]
  rfl

theorem cell_eq : val_main_v38 (F := Ideal) x0 x1 x2 x3 x4 x5 x6 = cellArr x0 x1 x2 x3 x5 x4 x6 := by
  funext i
  obtain ⟨b, h, rfl⟩ : ∃ (b : Fin 8192) (h : Fin 1024), i = ix2 b h := ⟨i 0, i 1, eq_ix2 i⟩
  exact cell_entry x0 x1 x2 x3 x5 x4 x6 b h

theorem hidden_eq : val_main_v40 (F := Ideal) x0 x1 x2 x3 x4 x5 x6 = hiddenArr x0 x1 x2 x3 x5 x4 x6 := by
  funext i
  obtain ⟨b, h, rfl⟩ : ∃ (b : Fin 8192) (h : Fin 1024), i = ix2 b h := ⟨i 0, i 1, eq_ix2 i⟩
  exact hidden_entry x0 x1 x2 x3 x5 x4 x6 b h

end Cert.ReferenceIdeal.Cell

end
-- ==== Proof.lean ====
/-
  One LSTM step: a Pallas kernel against its jnp reference, equal over the extended reals.

  Both programs compute, for batch row b and hidden unit h, the four gates' pre-activations
      z k b h = (∑ d, x b d · W k h d + ∑ d, hp b d · U k h d) + (bW k h + bU k h),
  then  c' = σ(z 0) · cp + σ(z 1) · tanh (z 3)  and  h' = σ(z 2) · tanh c'  (Proof/LstmSpec.lean).

  The kernel tiles the batch into 32 blocks of 256 rows; its body forms each gate with two matrix products
  (activations on the left, both operands contracted along their second axis) out of bf16 copies of the activations
  and weights — rounding is the identity on the extended reals — and applies the logistic function as one operation
  (Proof/GateBlock.lean, Proof/BlockValue.lean: the two result blocks as functions of the input blocks;
  Proof/KernelArrays.lean: the blocks tile the arrays, so each result array is the whole function). The reference
  contracts the weight stacks with the activations (weights on the left: the same products with their factors swapped),
  transposes, slices each gate out, and spells the logistic function as 1 / (1 + e^(-z)), which is its definition
  (Proof/RefCell.lean). No law beyond commutativity of the product is used, so the inputs' finiteness is never opened.

  The kernel's idealization rewrote no operation: `preserves` has nothing to state.
-/
import proofs.«166224_j72121090835050_1_alg».proof.Defs
import proofs.«166224_j72121090835050_1_alg».proof.Proof.Gen.Kernel
import proofs.«166224_j72121090835050_1_alg».proof.Proof.Gen.Kernel.Skeleton
import proofs.«166224_j72121090835050_1_alg».proof.Proof.Gen.Kernel.Launch
import proofs.«166224_j72121090835050_1_alg».proof.Proof.Gen.Kernel.Points
import proofs.«166224_j72121090835050_1_alg».proof.Proof.Gen.Kernel.Frame
import proofs.«166224_j72121090835050_1_alg».proof.Proof.Gen.KernelIdeal
import proofs.«166224_j72121090835050_1_alg».proof.Proof.Gen.KernelIdeal.Skeleton
import proofs.«166224_j72121090835050_1_alg».proof.Proof.Gen.KernelIdeal.Launch
import proofs.«166224_j72121090835050_1_alg».proof.Proof.Gen.KernelIdeal.Points
import proofs.«166224_j72121090835050_1_alg».proof.Proof.Gen.KernelIdeal.Frame
import proofs.«166224_j72121090835050_1_alg».proof.Proof.Gen.ReferenceIdeal
import proofs.«166224_j72121090835050_1_alg».proof.Proof.Gen.Pre_finite_inputs
import proofs.«166224_j72121090835050_1_alg».proof.Proof.Gen.KernelIdeal.Value
import proofs.«166224_j72121090835050_1_alg».proof.Proof.Gen.ReferenceIdeal.Run
import proofs.«166224_j72121090835050_1_alg».proof.Proof.Gen.ReferenceIdeal.Read
import proofs.«166224_j72121090835050_1_alg».proof.Proof.KernelArrays
import proofs.«166224_j72121090835050_1_alg».proof.Proof.RefCell
import Idealize.ShloMosaic.Adequacy
import Idealize.ShloMosaic.Init

noncomputable section

namespace Cert.Proof

open Idealize.ShloMosaic Idealize.ShloMosaic.TcCoe Idealize.SL.Sem Cert.Lstm

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- And the reference: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories that agree on the seven arguments, the idealized kernel ends with its results at the new hidden and cell
    states of its arguments, and the reference with its results at the same two functions of its own — equal arrays. -/
theorem algebraic : Cert.algebraic_KernelIdeal_ReferenceIdeal := by
  intro m ρ m' ρ' _ hagree
  refine ⟨fun c => hiddenArr (Cert.KernelIdeal.Arrays.argX m c) (Cert.KernelIdeal.Arrays.argHP m c) (Cert.KernelIdeal.Arrays.argCP m c)
      (Cert.KernelIdeal.Arrays.argW m c) (Cert.KernelIdeal.Arrays.argU m c) (Cert.KernelIdeal.Arrays.argBW m c) (Cert.KernelIdeal.Arrays.argBU m c),
    fun c => cellArr (Cert.KernelIdeal.Arrays.argX m c) (Cert.KernelIdeal.Arrays.argHP m c) (Cert.KernelIdeal.Arrays.argCP m c)
      (Cert.KernelIdeal.Arrays.argW m c) (Cert.KernelIdeal.Arrays.argU m c) (Cert.KernelIdeal.Arrays.argBW m c) (Cert.KernelIdeal.Arrays.argBU m c),
    Cert.KernelIdeal.Arrays.run m ρ, ?_⟩
  refine (θ_run Cert.ReferenceIdeal.defs _ _).mono (fun _ h c => ⟨?_, ?_, (h c).2.2⟩)
    (Cert.ReferenceIdeal.Value.run (F := Ideal) m' ρ')
  · refine ((h c).1.trans (Cert.ReferenceIdeal.Read.val_main_v40_eq m' c)).trans ((Cert.ReferenceIdeal.Cell.hidden_eq _ _ _ _ _ _ _).trans ?_)
    rw [(hagree c).1, (hagree c).2.1, (hagree c).2.2.1, (hagree c).2.2.2.1, (hagree c).2.2.2.2.1, (hagree c).2.2.2.2.2.1, (hagree c).2.2.2.2.2.2]
  · refine ((h c).2.1.trans (Cert.ReferenceIdeal.Read.val_main_v38_eq _ _ _ _ _ _ _)).trans ((Cert.ReferenceIdeal.Cell.cell_eq _ _ _ _ _ _ _).trans ?_)
    rw [(hagree c).1, (hagree c).2.1, (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
